-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x64 : Shape := ⟨3, ![16, 1024, 64]⟩
abbrev S16x1024x1024 : Shape := ⟨3, ![16, 1024, 1024]⟩
abbrev S8x64x64 : Shape := ⟨3, ![8, 64, 64]⟩
abbrev S128 : Shape := ⟨1, ![128]⟩
abbrev S_ : Shape := ⟨0, ![]⟩

class Facts : Prop where
  bcast_S_S16x1024x64 : S_.BroadcastsInDim S16x1024x64 (![] : Fin 0 → Fin S16x1024x64.rank)
  reducesTo_S16x1024x64_S_d0_1_2 : S16x1024x64.ReducesTo [0, 1, 2] S_
  h_S_ : 0 < S_.numel
  bcast_S_S8x64x64 : S_.BroadcastsInDim S8x64x64 (![] : Fin 0 → Fin S8x64x64.rank)
  reducesTo_S8x64x64_S_d0_1_2 : S8x64x64.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16x1024x64 .f32) (main_arg1 : IVec S16x1024x1024 32) (main_arg2 : FVec F S8x64x64 .f32) (main_arg3 : FVec F S8x64x64 .f32) (main_arg4 : FVec F S128 .f32) : IVec S_ 1 :=
  let main_v0 : FVec F S16x1024x64 .f32 := Host.absf main_arg0
  let main_cst : FVec F S_ .f32 := constant S_ .f32 0x7F800000#32
  let main_v1 : FVec F S16x1024x64 .f32 := broadcastInDim S16x1024x64 ![] bcast_S_S16x1024x64 main_cst
  let main_v2 : IVec S16x1024x64 1 := cmpf .olt main_v0 main_v1
  let main_c : IVec S_ 1 := constantI S_ 1 1#1
  let main_v3 : IVec S_ 1 := (fun x v => Host.reduce IntOp.andi x v reducesTo_S16x1024x64_S_d0_1_2 h_S_) main_v2 main_c
  let main_v4 : FVec F S8x64x64 .f32 := Host.absf main_arg2
  let main_cst_0 : FVec F S_ .f32 := constant S_ .f32 0x7F800000#32
  let main_v5 : FVec F S8x64x64 .f32 := broadcastInDim S8x64x64 ![] bcast_S_S8x64x64 main_cst_0
  let main_v6 : IVec S8x64x64 1 := cmpf .olt main_v4 main_v5
  let main_c_1 : IVec S_ 1 := constantI S_ 1 1#1
  let main_v7 : IVec S_ 1 := (fun x v => Host.reduce IntOp.andi x v reducesTo_S8x64x64_S_d0_1_2 h_S_) main_v6 main_c_1
  let main_v8 : IVec S_ 1 := andi main_v3 main_v7
  let main_v9 : FVec F S8x64x64 .f32 := Host.absf main_arg3
  let main_cst_2 : FVec F S_ .f32 := constant S_ .f32 0x7F800000#32
  let main_v10 : FVec F S8x64x64 .f32 := broadcastInDim S8x64x64 ![] bcast_S_S8x64x64 main_cst_2
  let main_v11 : IVec S8x64x64 1 := cmpf .olt main_v9 main_v10
  let main_c_3 : IVec S_ 1 := constantI S_ 1 1#1
  let main_v12 : IVec S_ 1 := (fun x v => Host.reduce IntOp.andi x v reducesTo_S8x64x64_S_d0_1_2 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16x1024x64 : Shape := ⟨3, ![16, 1024, 64]⟩
abbrev S16x1024x1024 : Shape := ⟨3, ![16, 1024, 1024]⟩
abbrev S8x64x64 : Shape := ⟨3, ![8, 64, 64]⟩
abbrev S128 : Shape := ⟨1, ![128]⟩
abbrev S1x128 : Shape := ⟨2, ![1, 128]⟩
abbrev S16x1024x128 : Shape := ⟨3, ![16, 1024, 128]⟩
abbrev S1x1024x64 : Shape := ⟨3, ![1, 1024, 64]⟩
abbrev S1x1024x1024 : Shape := ⟨3, ![1, 1024, 1024]⟩
abbrev S1x1024x128 : Shape := ⟨3, ![1, 1024, 128]⟩
abbrev S1024x64 : Shape := ⟨2, ![1024, 64]⟩
abbrev S1024x1024 : Shape := ⟨2, ![1024, 1024]⟩
abbrev S1x64x64 : Shape := ⟨3, ![1, 64, 64]⟩
abbrev S64x64 : Shape := ⟨2, ![64, 64]⟩
abbrev S1024x128 : Shape := ⟨2, ![1024, 128]⟩

abbrev nBuf : Space → Nat
  | .hbm => 9
  | .vmem => 9
  | .smem => 0
  | _ => 0

abbrev bufTy : (tb : Table) → Fin (tcTables nBuf tb) → BufTy
  | .hbm, ⟨0, _⟩ => ⟨S16x1024x64, .f32⟩
  | .hbm, ⟨1, _⟩ => ⟨S16x1024x1024, .i32⟩
  | .hbm, ⟨2, _⟩ => ⟨S8x64x64, .f32⟩
  | .hbm, ⟨3, _⟩ => ⟨S8x64x64, .f32⟩
  | .hbm, ⟨4, _⟩ => ⟨S128, .f32⟩
  | .hbm, ⟨5, _⟩ => ⟨S8x64x64, .f32⟩
  | .hbm, ⟨6, _⟩ => ⟨S8x64x64, .f32⟩
  | .hbm, ⟨7, _⟩ => ⟨S1x128, .f32⟩
  | .hbm, ⟨8, _⟩ => ⟨S16x1024x128, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x1024, .i32⟩
  | .local _ .vmem, ⟨3, _⟩ => ⟨S1x1024x1024, .i32⟩
  | .local _ .vmem, ⟨4, _⟩ => ⟨S8x64x64, .f32⟩
  | .local _ .vmem, ⟨5, _⟩ => ⟨S8x64x64, .f32⟩
  | .local _ .vmem, ⟨6, _⟩ => ⟨S1x128, .f32⟩
  | .local _ .vmem, ⟨7, _⟩ => ⟨S1x1024x128, .f32⟩
  | .local _ .vmem, ⟨8, _⟩ => ⟨S1x1024x128, .f32⟩
  | _, _ => ⟨S16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S8x64x64_S8x64x64_0_2_1 : S8x64x64.Transposes [0, 2, 1] S8x64x64
  shapeCasts_S128_S1x128 : S128.ShapeCasts S1x128
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  natLt_1_32 : 1 < 32
  inb_S8x64x64_S1x64x64_0_0_0 : ∀ a, (![0, 0, 0] : Fin 3 → Nat) a + S1x64x64.size a ≤ S8x64x64.size a
  h_S1x64x64 : 0 < S1x64x64.numel
  shapeCasts_S1x64x64_S64x64 : S1x64x64.ShapeCasts S64x64
  inb_S8x64x64_S1x64x64_1_0_0 : ∀ a, (![1, 0, 0] : Fin 3 → Nat) a + S1x64x64.size a ≤ S8x64x64.size a
  inb_S8x64x64_S1x64x64_2_0_0 : ∀ a, (![2, 0, 0] : Fin 3 → Nat) a + S1x64x64.size a ≤ S8x64x64.size a
  inb_S8x64x64_S1x64x64_3_0_0 : ∀ a, (![3, 0, 0] : Fin 3 → Nat) a + S1x64x64.size a ≤ S8x64x64.size a
  inb_S8x64x64_S1x64x64_4_0_0 : ∀ a, (![4, 0, 0] : Fin 3 → Nat) a + S1x64x64.size a ≤ S8x64x64.size a
  inb_S8x64x64_S1x64x64_5_0_0 : ∀ a, (![5, 0, 0] : Fin 3 → Nat) a + S1x64x64.size a ≤ S8x64x64.size a
  inb_S8x64x64_S1x64x64_6_0_0 : ∀ a, (![6, 0, 0] : Fin 3 → Nat) a + S1x64x64.size a ≤ S8x64x64.size a
  inb_S8x64x64_S1x64x64_7_0_0 : ∀ a, (![7, 0, 0] : Fin 3 → Nat) a + S1x64x64.size a ≤ S8x64x64.size a
  concatenates_S1024x64_S1024x64_S1024x128_d1 : Shape.Concatenates [S1024x64, S1024x64] S1024x128 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  dot_S1024x64_S64x64_S1024x64_1_0_0_1_n_n_wf : DotDims.WF S1024x64 S64x64 S1024x64 [1] [0] [0] [1] [] []
  dot_S1024x1024_S1024x64_S1024x64_1_0_0_1_n_n_wf : DotDims.WF S1024x1024 S1024x64 S1024x64 [1] [0] [0] [1] [] []
  dot_S1024x1024_S1024x64_S1024x64_0_0_1_1_n_n_wf : DotDims.WF S1024x1024 S1024x64 S1024x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S16x1024x64.size a
  hwx0_0 : ∀ i : grid0.Coords, EltTy.bits .f32 = 32 ∨ (Rect.block (s := S16x1024x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .i32 = 32 ∨ (Rect.block (s := S16x1024x1024) S1x1024x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64x64.size a ≤ S8x64x64.size a
  hwx0_2 : ∀ i : grid0.Coords, EltTy.bits .f32 = 32 ∨ (Rect.block (s := S8x64x64) S8x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x64x64.size a ≤ S8x64x64.size a
  hwx0_3 : ∀ i : grid0.Coords, EltTy.bits .f32 = 32 ∨ (Rect.block (s := S8x64x64) S8x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x128.size a ≤ S16x1024x128.size a
  hwx0_5 : ∀ i : grid0.Coords, EltTy.bits .f32 = 32 ∨ (Rect.block (s := S16x1024x128) S1x1024x128.size (cc0_transform_5 i) (hinb0_5 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x1024_S1024x64_S1024x64_0_0_1_1_n_n : DotDims S1024x1024 S1024x64 S1024x64 where
  lhsContracting := [0]
  rhsContracting := [0]
  lhsNonContracting := [1]
  rhsNonContracting := [1]
  lhsBatch := []
  rhsBatch := []
  wf := dot_S1024x1024_S1024x64_S1024x64_0_0_1_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x1024x64 : Shape := ⟨3, ![16, 1024, 64]⟩
abbrev S16x1024x1024 : Shape := ⟨3, ![16, 1024, 1024]⟩
abbrev S8x64x64 : Shape := ⟨3, ![8, 64, 64]⟩
abbrev S128 : Shape := ⟨1, ![128]⟩
abbrev S_ : Shape := ⟨0, ![]⟩
abbrev S1x64x64 : Shape := ⟨3, ![1, 64, 64]⟩
abbrev S64x64 : Shape := ⟨2, ![64, 64]⟩
abbrev S16x1024x128 : Shape := ⟨3, ![16, 1024, 128]⟩
abbrev S1x1x128 : Shape := ⟨3, ![1, 1, 128]⟩

abbrev nBuf : Space → Nat
  | .hbm => 158
  | .vmem => 0
  | .smem => 0
  | _ => 0

abbrev hbmTy0_0 (i : Nat) : BufTy := match i % 128 with
  | 0 => ⟨S16x1024x64, .f32⟩
  | 1 => ⟨S16x1024x1024, .i32⟩
  | 2 => ⟨S8x64x64, .f32⟩
  | 3 => ⟨S8x64x64, .f32⟩
  | 4 => ⟨S128, .f32⟩
  | 5 => ⟨S_, .f32⟩
  | 6 => ⟨S16x1024x64, .f32⟩
  | 7 => ⟨S_, .i32⟩
  | 8 => ⟨S16x1024x1024, .i32⟩
  | 9 => ⟨S16x1024x1024, .i1⟩
  | 10 => ⟨S16x1024x1024, .f32⟩
  | 11 => ⟨S1x64x64, .f32⟩
  | 12 => ⟨S64x64, .f32⟩
  | 13 => ⟨S16x1024x64, .f32⟩
  | 14 => ⟨S16x1024x64, .f32⟩
  | 15 => ⟨S16x1024x64, .f32⟩
  | 16 => ⟨S_, .i32⟩
  | 17 => ⟨S16x1024x1024, .i32⟩
  | 18 => ⟨S16x1024x1024, .i1⟩
  | 19 => ⟨S16x1024x1024, .f32⟩
  | 20 => ⟨S1x64x64, .f32⟩
  | 21 => ⟨S64x64, .f32⟩
  | 22 => ⟨S16x1024x64, .f32⟩
  | 23 => ⟨S16x1024x64, .f32⟩
  | 24 => ⟨S16x1024x64, .f32⟩
  | 25 => ⟨S_, .i32⟩
  | 26 => ⟨S16x1024x1024, .i32⟩
  | 27 => ⟨S16x1024x1024, .i1⟩
  | 28 => ⟨S16x1024x1024, .f32⟩
  | 29 => ⟨S1x64x64, .f32⟩
  | 30 => ⟨S64x64, .f32⟩
  | 31 => ⟨S16x1024x64, .f32⟩
  | 32 => ⟨S16x1024x64, .f32⟩
  | 33 => ⟨S16x1024x64, .f32⟩
  | 34 => ⟨S_, .i32⟩
  | 35 => ⟨S16x1024x1024, .i32⟩
  | 36 => ⟨S16x1024x1024, .i1⟩
  | 37 => ⟨S16x1024x1024, .f32⟩
  | 38 => ⟨S1x64x64, .f32⟩
  | 39 => ⟨S64x64, .f32⟩
  | 40 => ⟨S16x1024x64, .f32⟩
  | 41 => ⟨S16x1024x64, .f32⟩
  | 42 => ⟨S16x1024x64, .f32⟩
  | 43 => ⟨S_, .i32⟩
  | 44 => ⟨S16x1024x1024, .i32⟩
  | 45 => ⟨S16x1024x1024, .i1⟩
  | 46 => ⟨S16x1024x1024, .f32⟩
  | 47 => ⟨S1x64x64, .f32⟩
  | 48 => ⟨S64x64, .f32⟩
  | 49 => ⟨S16x1024x64, .f32⟩
  | 50 => ⟨S16x1024x64, .f32⟩
  | 51 => ⟨S16x1024x64, .f32⟩
  | 52 => ⟨S_, .i32⟩
  | 53 => ⟨S16x1024x1024, .i32⟩
  | 54 => ⟨S16x1024x1024, .i1⟩
  | 55 => ⟨S16x1024x1024, .f32⟩
  | 56 => ⟨S1x64x64, .f32⟩
  | 57 => ⟨S64x64, .f32⟩
  | 58 => ⟨S16x1024x64, .f32⟩
  | 59 => ⟨S16x1024x64, .f32⟩
  | 60 => ⟨S16x1024x64, .f32⟩
  | 61 => ⟨S_, .i32⟩
  | 62 => ⟨S16x1024x1024, .i32⟩
  | 63 => ⟨S16x1024x1024, .i1⟩
  | 64 => ⟨S16x1024x1024, .f32⟩
  | 65 => ⟨S1x64x64, .f32⟩
  | 66 => ⟨S64x64, .f32⟩
  | 67 => ⟨S16x1024x64, .f32⟩
  | 68 => ⟨S16x1024x64, .f32⟩
  | 69 => ⟨S16x1024x64, .f32⟩
  | 70 => ⟨S_, .i32⟩
  | 71 => ⟨S16x1024x1024, .i32⟩
  | 72 => ⟨S16x1024x1024, .i1⟩
  | 73 => ⟨S16x1024x1024, .f32⟩
  | 74 => ⟨S1x64x64, .f32⟩
  | 75 => ⟨S64x64, .f32⟩
  | 76 => ⟨S16x1024x64, .f32⟩
  | 77 => ⟨S16x1024x64, .f32⟩
  | 78 => ⟨S16x1024x64, .f32⟩
  | 79 => ⟨S16x1024x1024, .i32⟩
  | 80 => ⟨S_, .f32⟩
  | 81 => ⟨S16x1024x64, .f32⟩
  | 82 => ⟨S_, .i32⟩
  | 83 => ⟨S16x1024x1024, .i32⟩
  | 84 => ⟨S16x1024x1024, .i1⟩
  | 85 => ⟨S16x1024x1024, .f32⟩
  | 86 => ⟨S1x64x64, .f32⟩
  | 87 => ⟨S64x64, .f32⟩
  | 88 => ⟨S16x1024x64, .f32⟩
  | 89 => ⟨S16x1024x64, .f32⟩
  | 90 => ⟨S16x1024x64, .f32⟩
  | 91 => ⟨S_, .i32⟩
  | 92 => ⟨S16x1024x1024, .i32⟩
  | 93 => ⟨S16x1024x1024, .i1⟩
  | 94 => ⟨S16x1024x1024, .f32⟩
  | 95 => ⟨S1x64x64, .f32⟩
  | 96 => ⟨S64x64, .f32⟩
  | 97 => ⟨S16x1024x64, .f32⟩
  | 98 => ⟨S16x1024x64, .f32⟩
  | 99 => ⟨S16x1024x64, .f32⟩
  | 100 => ⟨S_, .i32⟩
  | 101 => ⟨S16x1024x1024, .i32⟩
  | 102 => ⟨S16x1024x1024, .i1⟩
  | 103 => ⟨S16x1024x1024, .f32⟩
  | 104 => ⟨S1x64x64, .f32⟩
  | 105 => ⟨S64x64, .f32⟩
  | 106 => ⟨S16x1024x64, .f32⟩
  | 107 => ⟨S16x1024x64, .f32⟩
  | 108 => ⟨S16x1024x64, .f32⟩
  | 109 => ⟨S_, .i32⟩
  | 110 => ⟨S16x1024x1024, .i32⟩
  | 111 => ⟨S16x1024x1024, .i1⟩
  | 112 => ⟨S16x1024x1024, .f32⟩
  | 113 => ⟨S1x64x64, .f32⟩
  | 114 => ⟨S64x64, .f32⟩
  | 115 => ⟨S16x1024x64, .f32⟩
  | 116 => ⟨S16x1024x64, .f32⟩
  | 117 => ⟨S16x1024x64, .f32⟩
  | 118 => ⟨S_, .i32⟩
  | 119 => ⟨S16x1024x1024, .i32⟩
  | 120 => ⟨S16x1024x1024, .i1⟩
  | 121 => ⟨S16x1024x1024, .f32⟩
  | 122 => ⟨S1x64x64, .f32⟩
  | 123 => ⟨S64x64, .f32⟩
  | 124 => ⟨S16x1024x64, .f32⟩
  | 125 => ⟨S16x1024x64, .f32⟩
  | 126 => ⟨S16x1024x64, .f32⟩
  | 127 => ⟨S_, .i32⟩
  | _ => ⟨S16x1024x64, .f32⟩

abbrev hbmTy0_1 (i : Nat) : BufTy := match i % 128 with
  | 0 => ⟨S16x1024x1024, .i32⟩
  | 1 => ⟨S16x1024x1024, .i1⟩
  | 2 => ⟨S16x1024x1024, .f32⟩
  | 3 => ⟨S1x64x64, .f32⟩
  | 4 => ⟨S64x64, .f32⟩
  | 5 => ⟨S16x1024x64, .f32⟩
  | 6 => ⟨S16x1024x64, .f32⟩
  | 7 => ⟨S16x1024x64, .f32⟩
  | 8 => ⟨S_, .i32⟩
  | 9 => ⟨S16x1024x1024, .i32⟩
  | 10 => ⟨S16x1024x1024, .i1⟩
  | 11 => ⟨S16x1024x1024, .f32⟩
  | 12 => ⟨S1x64x64, .f32⟩
  | 13 => ⟨S64x64, .f32⟩
  | 14 => ⟨S16x1024x64, .f32⟩
  | 15 => ⟨S16x1024x64, .f32⟩
  | 16 => ⟨S16x1024x64, .f32⟩
  | 17 => ⟨S_, .i32⟩
  | 18 => ⟨S16x1024x1024, .i32⟩
  | 19 => ⟨S16x1024x1024, .i1⟩
  | 20 => ⟨S16x1024x1024, .f32⟩
  | 21 => ⟨S1x64x64, .f32⟩
  | 22 => ⟨S64x64, .f32⟩
  | 23 => ⟨S16x1024x64, .f32⟩
  | 24 => ⟨S16x1024x64, .f32⟩
  | 25 => ⟨S16x1024x64, .f32⟩
  | 26 => ⟨S16x1024x128, .f32⟩
  | 27 => ⟨S1x1x128, .f32⟩
  | 28 => ⟨S16x1024x128, .f32⟩
  | 29 => ⟨S16x1024x128, .f32⟩
  | _ => ⟨S16x1024x64, .f32⟩

abbrev hbmTy (i : Nat) : BufTy := match i / 128 with
  | 0 => hbmTy0_0 i
  | 1 => hbmTy0_1 i
  | _ => ⟨S16x1024x64, .f32⟩

abbrev bufTy : (tb : Table) → Fin (tcTables nBuf tb) → BufTy
  | .hbm, ⟨i, _⟩ => hbmTy i
  | _, _ => ⟨S16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c_6 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_v66 : Ref sig .tc := ⟨.hbm, 81, rfl⟩
abbrev main_c_8 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_c_9 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_c_10 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_c_11 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_c_12 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_c_13 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_c_14 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_c_15 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩

abbrev nD : Nat := 1
abbrev τ : Topo := Topo.v7x

variable {F : FTy → Type} [FloatOps F]

class Facts₀ : Prop where
  bcast_S_S16x1024x64 : S_.BroadcastsInDim S16x1024x64 (![] : Fin 0 → Fin S16x1024x64.rank)
  bcast_S_S16x1024x1024 : S_.BroadcastsInDim S16x1024x1024 (![] : Fin 0 → Fin S16x1024x1024.rank)
  slices_S8x64x64_S1x64x64_0_0_0 : S8x64x64.Slices ![0, 0, 0] S1x64x64
  shapeCasts_S1x64x64_S64x64 : S1x64x64.ShapeCasts S64x64
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  transposes_S16x1024x1024_S16x1024x1024_0_2_1 : S16x1024x1024.Transposes [0, 2, 1] S16x1024x1024
  concatenates_S16x1024x64_S16x1024x64_S16x1024x128_d2 : Shape.Concatenates [S16x1024x64, S16x1024x64] S16x1024x128 2
  bcast_S128_S1x1x128_2 : S128.BroadcastsInDim S1x1x128 (![2] : Fin 1 → Fin S1x1x128.rank)
  bcast_S1x1x128_S16x1024x128_0_1_2 : S1x1x128.BroadcastsInDim S16x1024x128 (![0, 1, 2] : Fin 3 → Fin S16x1024x128.rank)
  dot_S16x1024x64_S64x64_S16x1024x64_2_1_01_0_n_n_wf : DotDims.WF S16x1024x64 S64x64 S16x1024x64 [2] [1] [0, 1] [0] [] []
  dot_S16x1024x1024_S16x1024x64_S16x1024x64_2_1_1_2_0_0_wf : DotDims.WF S16x1024x1024 S16x1024x64 S16x1024x64 [2] [1] [1] [2] [0] [0]

variable [Facts₀]

def dot_S16x1024x64_S64x64_S16x1024x64_2_1_01_0_n_n : DotDims S16x1024x64 S64x64 S16x1024x64 where
  lhsContracting := [2]
  rhsContracting := [1]
  lhsNonContracting := [0, 1]
  rhsNonContracting := [0]
  lhsBatch := []
  rhsBatch := []
  wf := dot_S16x1024x64_S64x64_S16x1024x64_2_1_01_0_n_n_wf
def dot_S16x1024x1024_S16x1024x64_S16x1024x64_2_1_1_2_0_0 : DotDims S16x1024x1024 S16x1024x64 S16x1024x64 where
  lhsContracting := [2]
  rhsContracting := [1]
  lhsNonContracting := [1]
  rhsNonContracting := [2]
  lhsBatch := [0]
  rhsBatch := [0]
  wf := dot_S16x1024x1024_S16x1024x64_S16x1024x64_2_1_1_2_0_0_wf

class Facts : Prop extends Facts₀ where

variable [Facts]
-- ==== Proof.Spec.lean ====
/-
  What both programs compute, as one function of the five argument arrays over the extended reals.

  A node v of graph b receives, for each edge class k = 0 … 7, the sum over its neighbours w whose edge word equals k
  of the neighbour's state projected by that class's matrix:
      classMsg k i = Σ_w [row w = k] · Σ_j node w j · W i j.
  The eight class messages are added, in class order, onto the zero the accumulation starts from. The incoming message
  reads the edge words along row v of the adjacency array (adj[b, v, w]) and the first stack of matrices; the outgoing
  one reads them along column v (adj[b, w, v]) and the second stack. The result row is the two messages side by side
  (columns 0 … 63 and 64 … 127) plus the bias.
-/
import Idealize.ShloMosaic.PureOps.Ideal
import Idealize.ShloMosaic.Lib.ValueIdx

noncomputable section

open scoped BigOperators

namespace Cert.Ggnn

open Idealize.ShloMosaic Idealize.ShloMosaic.ValueIdx

/-- The weight of an edge whose class word is `a` in class `k`'s sum: one when the words are equal, zero otherwise. -/
def wt (a k : BitVec 32) : EReal := (((IntOp.cmpi .eq a k).toNat : ℝ) : EReal)

/-- One class's message into feature `i`: over the neighbours `w` whose edge word `row w` is `k`, the sum of the
    neighbour's state `node w ·` against row `i` of the class's matrix. -/
def classMsg (node : Fin 1024 → Fin 64 → EReal) (row : Fin 1024 → BitVec 32) (W : Fin 64 → Fin 64 → EReal)
    (k : BitVec 32) (i : Fin 64) : EReal :=
  ∑ w : Fin 1024, wt (row w) k * ∑ j : Fin 64, node w j * W i j

/-- The eight class messages added in class order onto the starting value `z`. -/
def msg (z : EReal) (node : Fin 1024 → Fin 64 → EReal) (row : Fin 1024 → BitVec 32)
    (W : Fin 8 → Fin 64 → Fin 64 → EReal) (i : Fin 64) : EReal :=
  z + classMsg node row (W 0) 0#32 i + classMsg node row (W 1) 1#32 i + classMsg node row (W 2) 2#32 i
    + classMsg node row (W 3) 3#32 i + classMsg node row (W 4) 4#32 i + classMsg node row (W 5) 5#32 i
    + classMsg node row (W 6) 6#32 i + classMsg node row (W 7) 7#32 i

/-- The message depends on its three tables only through their entries. -/
theorem msg_congr (z : EReal) {node node' : Fin 1024 → Fin 64 → EReal} {row row' : Fin 1024 → BitVec 32}
    {W W' : Fin 8 → Fin 64 → Fin 64 → EReal} (hn : ∀ w j, node w j = node' w j) (hr : ∀ w, row w = row' w)
    (hW : ∀ e i j, W e i j = W' e i j) (i : Fin 64) : msg z node row W i = msg z node' row' W' i := by
  obtain rfl : node = node' := funext fun w => funext fun j => hn w j
  obtain rfl : row = row' := funext hr
  obtain rfl : W = W' := funext fun e => funext fun i => funext fun j => hW e i j
  rfl

abbrev SNode : Shape := ⟨3, ![16, 1024, 64]⟩
abbrev SAdj : Shape := ⟨3, ![16, 1024, 1024]⟩
abbrev SMat : Shape := ⟨3, ![8, 64, 64]⟩
abbrev SBias : Shape := ⟨1, ![128]⟩
abbrev SOut : Shape := ⟨3, ![16, 1024, 128]⟩

/-- The incoming message of node `v` of graph `b`, feature `i`: edge words read along row `v`. -/
def msgIn (z : EReal) (x : SNode.Idx → EReal) (adj : SAdj.Idx → BitVec 32) (Win : SMat.Idx → EReal)
    (b : Fin 16) (v : Fin 1024) (i : Fin 64) : EReal :=
  msg z (fun w j => x (ix3 b w j)) (fun w => adj (ix3 b v w)) (fun e i j => Win (ix3 e i j)) i

/-- The outgoing message: edge words read along column `v`. -/
def msgOut (z : EReal) (x : SNode.Idx → EReal) (adj : SAdj.Idx → BitVec 32) (Wout : SMat.Idx → EReal)
    (b : Fin 16) (v : Fin 1024) (i : Fin 64) : EReal :=
  msg z (fun w j => x (ix3 b w j)) (fun w => adj (ix3 b w v)) (fun e i j => Wout (ix3 e i j)) i

/-- The result at graph `b`, node `v`, column `c`: the incoming message for `c < 64`, the outgoing one at `c - 64`
    otherwise, plus the bias at `c`. -/
def resultAt (z : EReal) (x : SNode.Idx → EReal) (adj : SAdj.Idx → BitVec 32) (Win Wout : SMat.Idx → EReal)
    (bias : SBias.Idx → EReal) (b : Fin 16) (v : Fin 1024) (c : Fin 128) : EReal :=
  (if h : c.val < 64 then msgIn z x adj Win b v ⟨c.val, h⟩
    else msgOut z x adj Wout b v ⟨c.val - 64, by have := c.isLt; omega⟩) + bias (ix1 c)

/-- The whole result array. -/
def result (z : EReal) (x : SNode.Idx → EReal) (adj : SAdj.Idx → BitVec 32) (Win Wout : SMat.Idx → EReal)
    (bias : SBias.Idx → EReal) : SOut.Idx → EReal :=
  fun idx => resultAt z x adj Win Wout bias (idx 0) (idx 1) (idx 2)

theorem result_apply (z : EReal) (x : SNode.Idx → EReal) (adj : SAdj.Idx → BitVec 32) (Win Wout : SMat.Idx → EReal)
    (bias : SBias.Idx → EReal) (b : Fin 16) (v : Fin 1024) (c : Fin 128) :
    result z x adj Win Wout bias (ix3 b v c) = resultAt z x adj Win Wout bias b v c := rfl

/-- In the left half the result is the incoming message plus the bias. -/
theorem resultAt_left (z : EReal) (x : SNode.Idx → EReal) (adj : SAdj.Idx → BitVec 32) (Win Wout : SMat.Idx → EReal)
    (bias : SBias.Idx → EReal) (b : Fin 16) (v : Fin 1024) (c : Fin 128) (h : c.val < 64) :
    resultAt z x adj Win Wout bias b v c = msgIn z x adj Win b v ⟨c.val, h⟩ + bias (ix1 c) := by
  unfold resultAt; rw [dif_pos h]

/-- In the right half it is the outgoing message at the column less 64, plus the bias. -/
theorem resultAt_right (z : EReal) (x : SNode.Idx → EReal) (adj : SAdj.Idx → BitVec 32) (Win Wout : SMat.Idx → EReal)
    (bias : SBias.Idx → EReal) (b : Fin 16) (v : Fin 1024) (c : Fin 128) (h : ¬ c.val < 64) :
    resultAt z x adj Win Wout bias b v c
      = msgOut z x adj Wout b v ⟨c.val - 64, by have := c.isLt; omega⟩ + bias (ix1 c) := by
  unfold resultAt; rw [dif_neg h]

/-- A one-bit word read as a signed 32-bit integer after zero extension is the bit read unsigned: both are 0 or 1. -/
theorem bit_toInt_eq_toNat (b : BitVec 1) : (((b.setWidth 32).toInt : ℝ) : EReal) = ((b.toNat : ℝ) : EReal) := by
  rcases BitVec.eq_zero_or_eq_one b with rfl | rfl <;> simp

end Cert.Ggnn

end
-- ==== Proof.Steps.lean ====
/-
  The kernel body's arithmetic, named once and read at an index over the extended reals.

  The body treats one graph: `h` its node states [1024, 64], `adj` its edge words [1024, 1024]. For every edge class it
  builds the 0/1 mask of the edges of that class, projects the node states by the class's matrix
  (`project h W`: (w, i) ↦ Σ_j h w j · W j i), and adds into two accumulators the mask applied to the projection —
  along the mask's rows for the incoming message (`gatherIn`: (v, i) ↦ Σ_w mask v w · hw w i) and along its columns
  for the outgoing one (`gatherOut`: (v, i) ↦ Σ_w mask w v · hw w i). Every change of float format is the identity on
  the extended reals, and each matrix product into a zero accumulator is the plain sum over the contracted axis.
-/
import proofs.«172507_j26465588478646_1_alg».proof.Proof.Gen.KernelIdeal.Skeleton
import proofs.«172507_j26465588478646_1_alg».proof.Proof.Spec
import Idealize.ShloMosaic.Lib.ValueIdx
import Idealize.ShloMosaic.Lib.ValueLayout
import Idealize.ShloMosaic.PureOps.Ideal.Laws

noncomputable section

open scoped BigOperators

namespace Cert.KernelIdeal.Steps

open Cert.KernelIdeal Cert.KernelIdeal.Gen Idealize.ShloMosaic Idealize.ShloMosaic.ValueIdx Cert.Ggnn

/-! ## The body's steps, for any float instance -/

section Generic

variable {F : FTy → Type} [FloatOps F]

/-- The 0/1 mask of the edges whose class word is `k`. -/
def mask (adj : IVec S1024x1024 32) (k : BitVec 32) : FVec F S1024x1024 .bf16 :=
  truncf .bf16 (sitofp .f32 (extui 32 (cmpi .eq adj (broadcast S1024x1024 k)) natLt_1_32)) bitsLt_bf16_f32

/-- One class's matrix as the body uses it: the loaded [1, 64, 64] slab as a [64, 64] matrix. -/
def weights (v : Vec F S1x64x64 .f32) : FVec F S64x64 .bf16 :=
  truncf .bf16 (shapeCast S64x64 v shapeCasts_S1x64x64_S64x64) bitsLt_bf16_f32

/-- The node states projected by one class's matrix. -/
def project (h : FVec F S1024x64 .bf16) (W : FVec F S64x64 .bf16) : FVec F S1024x64 .bf16 :=
  truncf .bf16 (matmul dot_S1024x64_S64x64_S1024x64_1_0_0_1_n_n none h W (constant S1024x64 .f32 0x00000000#32)) bitsLt_bf16_f32

/-- The incoming accumulator after one class: the mask's rows applied to the projection. -/
def gatherIn (acc : FVec F S1024x64 .f32) (mk : FVec F S1024x1024 .bf16) (hw : FVec F S1024x64 .bf16) : FVec F S1024x64 .f32 :=
  addf acc (matmul dot_S1024x1024_S1024x64_S1024x64_1_0_0_1_n_n none mk hw (constant S1024x64 .f32 0x00000000#32))

/-- The outgoing accumulator after one class: the mask's columns applied to the projection. -/
def gatherOut (acc : FVec F S1024x64 .f32) (mk : FVec F S1024x1024 .bf16) (hw : FVec F S1024x64 .bf16) : FVec F S1024x64 .f32 :=
  addf acc (matmul dot_S1024x1024_S1024x64_S1024x64_0_0_1_1_n_n none mk hw (constant S1024x64 .f32 0x00000000#32))

/-- The zero the two accumulators start from. -/
def zeros : FVec F S1024x64 .f32 := broadcast S1024x64 (Scalar.ofBits .f32 0x00000000#32)

/-- The incoming accumulator after all eight classes, from the node states, the edge words and the eight loaded slabs. -/
def accIn (h : FVec F S1024x64 .bf16) (adj : IVec S1024x1024 32) (W : Fin 8 → Vec F S1x64x64 .f32) : FVec F S1024x64 .f32 :=
  gatherIn (gatherIn (gatherIn (gatherIn (gatherIn (gatherIn (gatherIn (gatherIn zeros
    (mask adj 0#32) (project h (weights (W 0)))) (mask adj 1#32) (project h (weights (W 1))))
    (mask adj 2#32) (project h (weights (W 2)))) (mask adj 3#32) (project h (weights (W 3))))
    (mask adj 4#32) (project h (weights (W 4)))) (mask adj 5#32) (project h (weights (W 5))))
    (mask adj 6#32) (project h (weights (W 6)))) (mask adj 7#32) (project h (weights (W 7)))

/-- The outgoing accumulator after all eight classes. -/
def accOut (h : FVec F S1024x64 .bf16) (adj : IVec S1024x1024 32) (W : Fin 8 → Vec F S1x64x64 .f32) : FVec F S1024x64 .f32 :=
  gatherOut (gatherOut (gatherOut (gatherOut (gatherOut (gatherOut (gatherOut (gatherOut zeros
    (mask adj 0#32) (project h (weights (W 0)))) (mask adj 1#32) (project h (weights (W 1))))
    (mask adj 2#32) (project h (weights (W 2)))) (mask adj 3#32) (project h (weights (W 3))))
    (mask adj 4#32) (project h (weights (W 4)))) (mask adj 5#32) (project h (weights (W 5))))
    (mask adj 6#32) (project h (weights (W 6)))) (mask adj 7#32) (project h (weights (W 7)))

/-- What the body stores: the two accumulators side by side, plus the bias row on every row, as a [1, 1024, 128] block. -/
def stored (aIn aOut : FVec F S1024x64 .f32) (bias : Vec F S1x128 .f32) : FVec F S1x1024x128 .f32 :=
  shapeCast S1x1024x128 (addf (concatenate S1024x128 1 [⟨S1024x64, aIn⟩, ⟨S1024x64, aOut⟩] concatenates_S1024x64_S1024x64_S1024x128_d1)
    (broadcastTo S1024x128 (shapeCast S1x128 bias shapeCasts_S1x128_S1x128) broadcasts_S1x128_S1024x128)) shapeCasts_S1024x128_S1x1024x128

/-- The stored block, from the five loaded blocks: the body's payloads are these steps, class after class. -/
theorem body_eq (x0 : Vec F S1x1024x64 .f32) (x1 : Vec F S1x1024x1024 .i32) (win wout : Fin 8 → Vec F S1x64x64 .f32) (x4 : Vec F S1x128 .f32) :
    k0_pay1 (k0_pay2 x0)
      (k0_pay20 (k0_pay2 x0) (k0_pay3 x1)
        (k0_pay15 (k0_pay2 x0) (k0_pay3 x1)
          (k0_pay10 (k0_pay2 x0) (k0_pay3 x1) (k0_pay5 x0 x1 (win 0)) (k0_pay7 x1) (k0_pay8 (win 1)) (win 2))
          (k0_pay12 (F := F) (k0_pay3 x1)) (k0_pay13 (win 3)) (win 4))
        (k0_pay17 (F := F) (k0_pay3 x1)) (k0_pay18 (win 5)) (win 6))
      (k0_pay21 (k0_pay2 x0) (k0_pay3 x1)
        (k0_pay16 (k0_pay2 x0) (k0_pay3 x1)
          (k0_pay11 (k0_pay2 x0) (k0_pay3 x1) (k0_pay6 x0 x1 (wout 0)) (k0_pay7 x1) (wout 1) (wout 2))
          (k0_pay12 (F := F) (k0_pay3 x1)) (wout 3) (wout 4))
        (k0_pay17 (F := F) (k0_pay3 x1)) (wout 5) (wout 6))
      (k0_pay22 (F := F) (k0_pay3 x1)) (k0_pay23 (win 7)) (wout 7) x4
    = stored (accIn (k0_pay2 x0) (k0_pay3 x1) win) (accOut (k0_pay2 x0) (k0_pay3 x1) wout) x4 := rfl

end Generic

/-! ## The steps read at an index, over the extended reals -/

section AtIdeal

/-- The mask at (v, w) is the weight of the edge word there. -/
theorem mask_apply (adj : IVec S1024x1024 32) (k : BitVec 32) (v w : Fin 1024) :
    mask (F := Ideal) adj k (ix2 v w) = wt (adj (ix2 v w)) k :=
  bit_toInt_eq_toNat (IntOp.cmpi .eq (adj (ix2 v w)) k)

/-- The matrix at (j, i) is the loaded slab at (0, j, i). -/
theorem weights_apply (s : Vec Ideal S1x64x64 .f32) (j i : Fin 64) :
    weights (F := Ideal) s (ix2 j i) = s (ix3 (0 : Fin 1) j i) :=
  shapeCast_1ab_ab_apply s shapeCasts_S1x64x64_S64x64 j i

theorem projL0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem projL1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem projR0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem projR1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- The projection at (w, i): the sum over the 64 features `j` of the state at (w, j) times the matrix at (j, i). -/
theorem project_apply (h : FVec Ideal S1024x64 .bf16) (W : FVec Ideal S64x64 .bf16) (w : Fin 1024) (i : Fin 64) :
    project h W (ix2 w i) = ∑ j : Fin 64, h (ix2 w j) * W (ix2 j i) := by
  refine (Ideal.matmul_constant_zero_apply dot_S1024x64_S64x64_S1024x64_1_0_0_1_n_n none h W (ix2 w i)).trans ?_
  rw [← Equiv.sum_comp (contrEquiv1 dot_S1024x64_S64x64_S1024x64_1_0_0_1_n_n 64 rfl rfl).symm]
  refine Finset.sum_congr rfl fun k _ => ?_
  have hk := contrEquiv1_symm_val dot_S1024x64_S64x64_S1024x64_1_0_0_1_n_n 64 rfl rfl k
  have el : dot_S1024x64_S64x64_S1024x64_1_0_0_1_n_n.lhsIdx (ix2 w i) ((contrEquiv1 dot_S1024x64_S64x64_S1024x64_1_0_0_1_n_n 64 rfl rfl).symm k) = ix2 w k := funext fun a => Fin.ext (by
    match a with
    | ⟨0, _⟩ => exact projL0 _ _
    | ⟨1, _⟩ => exact (projL1 _ _).trans hk)
  have er : dot_S1024x64_S64x64_S1024x64_1_0_0_1_n_n.rhsIdx (ix2 w i) ((contrEquiv1 dot_S1024x64_S64x64_S1024x64_1_0_0_1_n_n 64 rfl rfl).symm k) = ix2 k i := funext fun a => Fin.ext (by
    match a with
    | ⟨0, _⟩ => exact (projR0 _ _).trans hk
    | ⟨1, _⟩ => exact projR1 _ _)
  rw [el, er]

theorem inL0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem inL1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem inR0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem inR1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The incoming step at (v, i): the accumulator there plus the sum over the neighbours `w` of the mask at (v, w) times
    the projection at (w, i). -/
theorem gatherIn_apply (acc : FVec Ideal S1024x64 .f32) (mk : FVec Ideal S1024x1024 .bf16) (hw : FVec Ideal S1024x64 .bf16)
    (v : Fin 1024) (i : Fin 64) :
    gatherIn acc mk hw (ix2 v i) = acc (ix2 v i) + ∑ w : Fin 1024, mk (ix2 v w) * hw (ix2 w i) := by
  refine congrArg (acc (ix2 v i) + ·) ?_
  refine (Ideal.matmul_constant_zero_apply dot_S1024x1024_S1024x64_S1024x64_1_0_0_1_n_n none mk hw (ix2 v i)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 v i) ((contrEquiv1 dot_S1024x1024_S1024x64_S1024x64_1_0_0_1_n_n 1024 rfl rfl).symm k) = ix2 v k := funext fun a => Fin.ext (by
    match a with
    | ⟨0, _⟩ => exact inL0 _ _
    | ⟨1, _⟩ => exact (inL1 _ _).trans hk)
  have er : dot_S1024x1024_S1024x64_S1024x64_1_0_0_1_n_n.rhsIdx (ix2 v i) ((contrEquiv1 dot_S1024x1024_S1024x64_S1024x64_1_0_0_1_n_n 1024 rfl rfl).symm k) = ix2 k i := funext fun a => Fin.ext (by
    match a with
    | ⟨0, _⟩ => exact (inR0 _ _).trans hk
    | ⟨1, _⟩ => exact inR1 _ _)
  rw [el, er]

theorem outL0 (i : S1024x64.Idx) (q : dot_S1024x1024_S1024x64_S1024x64_0_0_1_1_n_n.contr.Idx) :
    (dot_S1024x1024_S1024x64_S1024x64_0_0_1_1_n_n.lhsIdx i q 0).val = (q ⟨0, by decide⟩).val :=
  dot_S1024x1024_S1024x64_S1024x64_0_0_1_1_n_n.lhsIdx_val_of_single rfl i q
theorem outL1 (i : S1024x64.Idx) (q : dot_S1024x1024_S1024x64_S1024x64_0_0_1_1_n_n.contr.Idx) :
    (dot_S1024x1024_S1024x64_S1024x64_0_0_1_1_n_n.lhsIdx i q 1).val = (i 0).val := by
  unfold DotDims.lhsIdx
  rw [dif_neg (show ¬(1 : Fin S1024x1024.rank) ∈ dot_S1024x1024_S1024x64_S1024x64_0_0_1_1_n_n.lhsBatch by decide), dif_pos (show (1 : Fin S1024x1024.rank) ∈ dot_S1024x1024_S1024x64_S1024x64_0_0_1_1_n_n.lhsNonContracting by decide)]
  rfl
theorem outR0 (i : S1024x64.Idx) (q : dot_S1024x1024_S1024x64_S1024x64_0_0_1_1_n_n.contr.Idx) :
    (dot_S1024x1024_S1024x64_S1024x64_0_0_1_1_n_n.rhsIdx i q 0).val = (q ⟨0, by decide⟩).val :=
  dot_S1024x1024_S1024x64_S1024x64_0_0_1_1_n_n.rhsIdx_val_of_single rfl i q
theorem outR1 (i : S1024x64.Idx) (q : dot_S1024x1024_S1024x64_S1024x64_0_0_1_1_n_n.contr.Idx) :
    (dot_S1024x1024_S1024x64_S1024x64_0_0_1_1_n_n.rhsIdx i q 1).val = (i 1).val := by
  unfold DotDims.rhsIdx
  rw [dif_neg (show ¬(1 : Fin S1024x64.rank) ∈ dot_S1024x1024_S1024x64_S1024x64_0_0_1_1_n_n.rhsBatch by decide), dif_pos (show (1 : Fin S1024x64.rank) ∈ dot_S1024x1024_S1024x64_S1024x64_0_0_1_1_n_n.rhsNonContracting by decide)]
  rfl

/-- The outgoing step at (v, i): the accumulator there plus the sum over `w` of the mask at (w, v) — the mask read along its
    column `v` — times the projection at (w, i). -/
theorem gatherOut_apply (acc : FVec Ideal S1024x64 .f32) (mk : FVec Ideal S1024x1024 .bf16) (hw : FVec Ideal S1024x64 .bf16)
    (v : Fin 1024) (i : Fin 64) :
    gatherOut acc mk hw (ix2 v i) = acc (ix2 v i) + ∑ w : Fin 1024, mk (ix2 w v) * hw (ix2 w i) := by
  refine congrArg (acc (ix2 v i) + ·) ?_
  refine (Ideal.matmul_constant_zero_apply dot_S1024x1024_S1024x64_S1024x64_0_0_1_1_n_n none mk hw (ix2 v i)).trans ?_
  rw [← Equiv.sum_comp (contrEquiv1 dot_S1024x1024_S1024x64_S1024x64_0_0_1_1_n_n 1024 rfl rfl).symm]
  refine Finset.sum_congr rfl fun k _ => ?_
  have hk := contrEquiv1_symm_val dot_S1024x1024_S1024x64_S1024x64_0_0_1_1_n_n 1024 rfl rfl k
  have el : dot_S1024x1024_S1024x64_S1024x64_0_0_1_1_n_n.lhsIdx (ix2 v i) ((contrEquiv1 dot_S1024x1024_S1024x64_S1024x64_0_0_1_1_n_n 1024 rfl rfl).symm k) = ix2 k v := funext fun a => Fin.ext (by
    match a with
    | ⟨0, _⟩ => exact (outL0 _ _).trans hk
    | ⟨1, _⟩ => exact outL1 _ _)
  have er : dot_S1024x1024_S1024x64_S1024x64_0_0_1_1_n_n.rhsIdx (ix2 v i) ((contrEquiv1 dot_S1024x1024_S1024x64_S1024x64_0_0_1_1_n_n 1024 rfl rfl).symm k) = ix2 k i := funext fun a => Fin.ext (by
    match a with
    | ⟨0, _⟩ => exact (outR0 _ _).trans hk
    | ⟨1, _⟩ => exact outR1 _ _)
  rw [el, er]

end AtIdeal

end Cert.KernelIdeal.Steps

end
-- ==== Proof.Stored.lean ====
/-
  The block the body stores, read at an index: in its left 64 columns the incoming message of the block's graph, in its
  right 64 columns the outgoing one, each the eight class messages added in class order onto zero, plus the bias row.
-/
import proofs.«172507_j26465588478646_1_alg».proof.Proof.Steps
import Idealize.ShloMosaic.Lib.Pipeline.Value

noncomputable section

open scoped BigOperators

namespace Cert.KernelIdeal.Steps

open Cert.KernelIdeal Cert.KernelIdeal.Gen Idealize.ShloMosaic Idealize.ShloMosaic.ValueIdx Cert.Ggnn

/-- The accumulators start from the zero word's value. -/
theorem zeros_apply (v : Fin 1024) (i : Fin 64) : zeros (F := Ideal) (ix2 v i) = Ideal.ofBits .f32 0x00000000#32 := rfl

/-- The incoming accumulator at (v, i) is the eight class messages read along row `v` of the edge words. -/
theorem accIn_apply (h : FVec Ideal S1024x64 .bf16) (adj : IVec S1024x1024 32) (W : Fin 8 → Vec Ideal S1x64x64 .f32)
    (v : Fin 1024) (i : Fin 64) :
    accIn h adj W (ix2 v i)
      = msg (Ideal.ofBits .f32 0x00000000#32) (fun w j => h (ix2 w j)) (fun w => adj (ix2 v w))
          (fun e i j => W e (ix3 (0 : Fin 1) j i)) i := by
  unfold accIn msg classMsg
  simp only [gatherIn_apply, mask_apply, project_apply, weights_apply, zeros_apply]

/-- The outgoing accumulator at (v, i) is the eight class messages read along column `v` of the edge words. -/
theorem accOut_apply (h : FVec Ideal S1024x64 .bf16) (adj : IVec S1024x1024 32) (W : Fin 8 → Vec Ideal S1x64x64 .f32)
    (v : Fin 1024) (i : Fin 64) :
    accOut h adj W (ix2 v i)
      = msg (Ideal.ofBits .f32 0x00000000#32) (fun w j => h (ix2 w j)) (fun w => adj (ix2 w v))
          (fun e i j => W e (ix3 (0 : Fin 1) j i)) i := by
  unfold accOut msg classMsg
  simp only [gatherOut_apply, mask_apply, project_apply, weights_apply, zeros_apply]

/-- The stored block at a column of its left half: the incoming accumulator there plus the bias. -/
theorem stored_left (aIn aOut : FVec Ideal S1024x64 .f32) (bias : Vec Ideal S1x128 .f32) (u : Fin 1) (v : Fin 1024) (c : Fin 128)
    (hc : c.val < 64) :
    stored aIn aOut bias (ix3 u v c) = aIn (ix2 v ⟨c.val, hc⟩) + bias (ix2 (0 : Fin 1) c) := by
  unfold stored
  rw [shapeCast_ab_1ab_apply _ shapeCasts_S1024x128_S1x1024x128 u v c, addf_apply, shapeCast_self,
    broadcastTo_1b_ab_apply bias broadcasts_S1x128_S1024x128 v c]
  refine congrArg (· + bias (ix2 (0 : Fin 1) c)) ?_
  exact concatenate_pair_apply_left (1 : Fin S1024x128.rank) aIn aOut concatenates_S1024x64_S1024x64_S1024x128_d1 (ix2 v c) rfl
    (ix2 v ⟨c.val, hc⟩) (fun b => match b with | ⟨0, _⟩ => rfl | ⟨1, _⟩ => rfl)

/-- The stored block at a column of its right half: the outgoing accumulator at the column less 64, plus the bias. -/
theorem stored_right (aIn aOut : FVec Ideal S1024x64 .f32) (bias : Vec Ideal S1x128 .f32) (u : Fin 1) (v : Fin 1024) (c : Fin 128)
    (hc : ¬ c.val < 64) :
    stored aIn aOut bias (ix3 u v c) = aOut (ix2 v ⟨c.val - 64, by have := c.isLt; omega⟩) + bias (ix2 (0 : Fin 1) c) := by
  unfold stored
  rw [shapeCast_ab_1ab_apply _ shapeCasts_S1024x128_S1x1024x128 u v c, addf_apply, shapeCast_self,
    broadcastTo_1b_ab_apply bias broadcasts_S1x128_S1024x128 v c]
  refine congrArg (· + bias (ix2 (0 : Fin 1) c)) ?_
  refine concatenate_pair_apply_right (1 : Fin S1024x128.rank) aIn aOut concatenates_S1024x64_S1024x64_S1024x128_d1 (ix2 v c) rfl rfl
    (ix2 v ⟨c.val - 64, by have := c.isLt; omega⟩) (fun b => match b with | ⟨0, _⟩ => fun _ => rfl | ⟨1, _⟩ => fun hb => absurd rfl hb) ?_
  show c.val - 64 + 64 = c.val
  omega

end Cert.KernelIdeal.Steps

end
-- ==== Proof.KValue.lean ====
/-
  The kernel's result array after the run is the result function of the five argument arrays.

  Grid point t treats graph t. Its five input blocks are: graph t of the node states and of the edge words; the two whole
  stacks of matrices, each matrix transposed by the host before the call (block entry (e, j, i) is the argument's (e, i, j));
  and the bias as one row. Read through these, the block the body stores at (0, v, c) is the result at (t, v, c): the incoming
  message for c < 64, the outgoing one at c - 64 otherwise, plus the bias at c. Point t writes that block back to rows
  (t, ·, ·) of the result array, and the sixteen points' blocks tile the array: index (b, v, c) lies in point b's block.
-/
import proofs.«172507_j26465588478646_1_alg».proof.Proof.Gen.KernelIdeal.Value
import proofs.«172507_j26465588478646_1_alg».proof.Proof.Stored
import Idealize.ShloMosaic.Lib.Pipeline.Value
import Idealize.ShloMosaic.Lib.StableHlo.Run

set_option maxRecDepth 16384

noncomputable section

open scoped BigOperators

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Value Cert.KernelIdeal.Steps Cert.Ggnn Idealize.ShloMosaic.ValueIdx

variable (m : (ℓ : Loc nD τ sig) → Buf (Elt Ideal) ℓ) (ρ : Dev nD → PrngReg)

abbrev xNode (c : Dev nD) : S16x1024x64.Idx → EReal := m ((c : Thread nD τ).loc main_arg0)
abbrev xAdj (c : Dev nD) : S16x1024x1024.Idx → BitVec 32 := m ((c : Thread nD τ).loc main_arg1)
abbrev xWin (c : Dev nD) : S8x64x64.Idx → EReal := m ((c : Thread nD τ).loc main_arg2)
abbrev xWout (c : Dev nD) : S8x64x64.Idx → EReal := m ((c : Thread nD τ).loc main_arg3)
abbrev xBias (c : Dev nD) : S128.Idx → EReal := m ((c : Thread nD τ).loc main_arg4)

abbrev target (c : Dev nD) : S16x1024x128.Idx → EReal :=
  result (Ideal.ofBits .f32 0x00000000#32) (xNode m c) (xAdj m c) (xWin m c) (xWout m c) (xBias m c)

theorem hz3 : (![0, 0, 0] : Fin 3 → Nat) = fun _ => 0 := funext fun a => by fin_cases a <;> rfl
theorem hz2 : (![0, 0] : Fin 2 → Nat) = fun _ => 0 := funext fun a => by fin_cases a <;> rfl

theorem V_v0 (c : Dev nD) : (V m c main_v0 : S8x64x64.Idx → EReal) = transpose S8x64x64 [0, 2, 1] (xWin m c) transposes_S8x64x64_S8x64x64_0_2_1 := by
  dsimp only [Gen.V, Gen.hostOps0]; after_results

theorem V_v1 (c : Dev nD) : (V m c main_v1 : S8x64x64.Idx → EReal) = transpose S8x64x64 [0, 2, 1] (xWout m c) transposes_S8x64x64_S8x64x64_0_2_1 := by
  dsimp only [Gen.V, Gen.hostOps0]; after_results

theorem V_v2 (c : Dev nD) : (V m c main_v2 : S1x128.Idx → EReal) = shapeCast S1x128 (xBias m c) shapeCasts_S128_S1x128 := by
  dsimp only [Gen.V, Gen.hostOps0]; after_results; rfl

theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## The five input blocks of point `t`, at their literal types, read from the argument arrays -/

abbrev nodeBlk (c : Dev nD) (t : Fin cfg0.N) : Vec Ideal S1x1024x64 .f32 := iblk m c 0 t
abbrev adjBlk (c : Dev nD) (t : Fin cfg0.N) : Vec Ideal S1x1024x1024 .i32 := iblk m c 1 t
abbrev winBlk (c : Dev nD) (t : Fin cfg0.N) : Vec Ideal S8x64x64 .f32 := iblk m c 2 t
abbrev woutBlk (c : Dev nD) (t : Fin cfg0.N) : Vec Ideal S8x64x64 .f32 := iblk m c 3 t
abbrev biasBlk (c : Dev nD) (t : Fin cfg0.N) : Vec Ideal S1x128 .f32 := iblk m c 4 t

/-- Point `t`'s block of node states is graph `t` of the array. -/
theorem nodeBlk_apply (c : Dev nD) (t : Fin cfg0.N) (b : Fin 16) (hb : b.val = t.val) (u : Fin 1) (w : Fin 1024) (j : Fin 64) :
    nodeBlk m c t (ix3 u w j) = xNode m c (ix3 b w j) := by
  obtain ⟨e0, e1, e2, -⟩ := idx_facts t
  show iblk m c 0 t (ix3 u w j) = _
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 1 + 1 * u.val = b.val; have := u.isLt; omega
  | ⟨1, _⟩ => show win0_0.index t (1 : Fin 3) * 1024 + 1 * w.val = w.val; omega
  | ⟨2, _⟩ => show win0_0.index t (2 : Fin 3) * 64 + 1 * j.val = j.val; omega

/-- Point `t`'s block of edge words is graph `t` of the array. -/
theorem adjBlk_apply (c : Dev nD) (t : Fin cfg0.N) (b : Fin 16) (hb : b.val = t.val) (u : Fin 1) (v w : Fin 1024) :
    adjBlk m c t (ix3 u v w) = xAdj m c (ix3 b v w) := by
  obtain ⟨-, -, -, e0, e1, e2, -⟩ := idx_facts t
  show iblk m c 1 t (ix3 u v w) = _
  unfold iblk
  rw [View.read_apply]
  show V m c main_arg1 _ = m (c.tc.loc main_arg1) _
  rw [V_main_arg1]
  congr 1
  funext a
  apply Fin.ext
  match a with
  | ⟨0, _⟩ => show win0_1.index t (0 : Fin 3) * 1 + 1 * u.val = b.val; have := u.isLt; omega
  | ⟨1, _⟩ => show win0_1.index t (1 : Fin 3) * 1024 + 1 * v.val = v.val; omega
  | ⟨2, _⟩ => show win0_1.index t (2 : Fin 3) * 1024 + 1 * w.val = w.val; omega

/-- Every point's block of the first stack of matrices is the whole stack, each matrix transposed before the call:
    at (e, j, i) it is the argument at (e, i, j). -/
theorem winBlk_apply (c : Dev nD) (t : Fin cfg0.N) (e : Fin 8) (j i : Fin 64) :
    winBlk m c t (ix3 e j i) = xWin m c (ix3 e i j) := by
  obtain ⟨-, -, -, -, -, -, e0, e1, e2, -⟩ := idx_facts t
  show iblk m c 2 t (ix3 e j i) = _
  unfold iblk
  rw [View.read_apply]
  show (V m c main_v0 : S8x64x64.Idx → EReal) _ = _
  rw [V_v0]
  refine Eq.trans (congrArg _ ?_) (transpose_ix3_021_apply (xWin m c) transposes_S8x64x64_S8x64x64_0_2_1 e j i)
  funext a
  apply Fin.ext
  match a with
  | ⟨0, _⟩ => show win0_2.index t (0 : Fin 3) * 8 + 1 * e.val = e.val; omega
  | ⟨1, _⟩ => show win0_2.index t (1 : Fin 3) * 64 + 1 * j.val = j.val; omega
  | ⟨2, _⟩ => show win0_2.index t (2 : Fin 3) * 64 + 1 * i.val = i.val; omega

/-- The same for the second stack. -/
theorem woutBlk_apply (c : Dev nD) (t : Fin cfg0.N) (e : Fin 8) (j i : Fin 64) :
    woutBlk m c t (ix3 e j i) = xWout m c (ix3 e i j) := by
  obtain ⟨-, -, -, -, -, -, -, -, -, e0, e1, e2, -⟩ := idx_facts t
  show iblk m c 3 t (ix3 e j i) = _
  unfold iblk
  rw [View.read_apply]
  show (V m c main_v1 : S8x64x64.Idx → EReal) _ = _
  rw [V_v1]
  refine Eq.trans (congrArg _ ?_) (transpose_ix3_021_apply (xWout m c) transposes_S8x64x64_S8x64x64_0_2_1 e j i)
  funext a
  apply Fin.ext
  match a with
  | ⟨0, _⟩ => show win0_3.index t (0 : Fin 3) * 8 + 1 * e.val = e.val; omega
  | ⟨1, _⟩ => show win0_3.index t (1 : Fin 3) * 64 + 1 * j.val = j.val; omega
  | ⟨2, _⟩ => show win0_3.index t (2 : Fin 3) * 64 + 1 * i.val = i.val; omega

/-- Every point's bias block is the bias vector as one row. -/
theorem biasBlk_apply (c : Dev nD) (t : Fin cfg0.N) (u : Fin 1) (cc : Fin 128) :
    biasBlk m c t (ix2 u cc) = xBias m c (ix1 cc) := by
  obtain ⟨-, -, -, -, -, -, -, -, -, -, -, -, e0, e1, -⟩ := idx_facts t
  show iblk m c 4 t (ix2 u cc) = _
  unfold iblk
  rw [View.read_apply]
  show (V m c main_v2 : S1x128.Idx → EReal) _ = _
  rw [V_v2]
  refine Eq.trans (congrArg _ ?_) (shapeCast_a_1a_apply (xBias m c) shapeCasts_S128_S1x128 u cc)
  funext a
  apply Fin.ext
  match a with
  | ⟨0, _⟩ => show win0_4.index t (0 : Fin 2) * 1 + 1 * u.val = u.val; omega
  | ⟨1, _⟩ => show win0_4.index t (1 : Fin 2) * 128 + 1 * cc.val = cc.val; omega

/-- The rectangle through which the body loads class `e`'s matrix from a stack. -/
abbrev slab (e : Fin 8) : Rect S8x64x64 :=
  Rect.unit (s := S8x64x64) ![e.val, 0, 0] S1x64x64.size (fun a => match a with
    | ⟨0, _⟩ => by show e.val + 1 ≤ 8; omega
    | ⟨1, _⟩ => by show 0 + 64 ≤ 64; omega
    | ⟨2, _⟩ => by show 0 + 64 ≤ 64; omega)

/-- A load through it reads the stack at (e, j, i). -/
theorem slab_apply (X : Vec Ideal S8x64x64 .f32) (e : Fin 8) (u : Fin 1) (j i : Fin 64) :
    View.ld X (slab e) (ix3 u j i) = X (ix3 e j i) := by
  show X ((slab e).idx (ix3 u j i)) = X (ix3 e j i)
  congr 1
  funext a
  apply Fin.ext
  match a with
  | ⟨0, _⟩ => show e.val + 1 * u.val = e.val; have := u.isLt; omega
  | ⟨1, _⟩ => show 0 + 1 * j.val = j.val; omega
  | ⟨2, _⟩ => show 0 + 1 * i.val = i.val; omega

/-! ## What point `t` writes back is block `t` of the result -/

theorem flushed_eq (c : Dev nD) (t : Fin cfg0.N) :
    (dats m 0 c).flushed 5 t = ((cfg0.win 5).blk t).view.read (Elt Ideal) (target m c) := by
  rw [Value.flushed5]
  unfold out0_5
  rw [View.canon_unit_zero hz3]
  simp only [View.ld_unit_zero (S := S1x1024x64) hz3, View.ld_unit_zero (S := S1x1024x1024) hz3, View.ld_unit_zero (S := S1x128) hz2]
  refine Eq.trans (congrArg ((win0 5).cut (grid0.coords t)) (body_eq (F := Ideal) (nodeBlk m c t) (adjBlk m c t)
    (fun e => View.ld (winBlk m c t) (slab e)) (fun e => View.ld (woutBlk m c t) (slab e)) (biasBlk m c t))) ?_
  funext y
  obtain ⟨u, v, cc, rfl⟩ : ∃ (u : Fin 1) (v : Fin 1024) (cc : Fin 128), y = ix3 u v cc := ⟨y 0, y 1, y 2, eq_ix3 y⟩
  have hb : t.val < 16 := lt_of_lt_of_eq t.isLt N_0
  obtain ⟨-, -, -, -, -, -, -, -, -, -, -, -, -, -, e0, e1, e2⟩ := idx_facts t
  have hR : View.read (Elt Ideal) ((View.whole main_v3).slice ((win0 5).rect t)) (target m c) (ix3 u v cc)
      = target m c (ix3 (⟨t.val, hb⟩ : Fin 16) v cc) := by
    rw [View.read_apply]
    show target m c _ = _
    congr 1
    funext a
    apply Fin.ext
    match a with
    | ⟨0, _⟩ => show win0_5.index t (0 : Fin 3) * 1 + 1 * u.val = t.val; have := u.isLt; omega
    | ⟨1, _⟩ => show win0_5.index t (1 : Fin 3) * 1024 + 1 * v.val = v.val; omega
    | ⟨2, _⟩ => show win0_5.index t (2 : Fin 3) * 128 + 1 * cc.val = cc.val; omega
  have hk2 : ∀ w j, k0_pay2 (nodeBlk m c t) (ix2 w j) = xNode m c (ix3 (⟨t.val, hb⟩ : Fin 16) w j) := fun w j =>
    (shapeCast_1ab_ab_apply (nodeBlk m c t) shapeCasts_S1x1024x64_S1024x64 w j).trans
      (nodeBlk_apply m c t ⟨t.val, hb⟩ rfl 0 w j)
  have hk3 : ∀ v w, k0_pay3 (adjBlk m c t) (ix2 v w) = xAdj m c (ix3 (⟨t.val, hb⟩ : Fin 16) v w) := fun v w =>
    (shapeCast_1ab_ab_apply (adjBlk m c t) shapeCasts_S1x1024x1024_S1024x1024 v w).trans
      (adjBlk_apply m c t ⟨t.val, hb⟩ rfl 0 v w)
  show stored _ _ _ (ix3 u v cc) = _
  rw [hR]
  show _ = resultAt (Ideal.ofBits .f32 0x00000000#32) (xNode m c) (xAdj m c) (xWin m c) (xWout m c) (xBias m c) ⟨t.val, hb⟩ v cc
  by_cases hc : cc.val < 64
  · rw [stored_left _ _ _ u v cc hc, resultAt_left _ _ _ _ _ _ _ _ _ hc, accIn_apply]
    refine congrArg₂ (· + ·) ?_ (biasBlk_apply m c t 0 cc)
    unfold msgIn
    refine msg_congr _ (fun w j => hk2 w j) (fun w => hk3 v w) (fun e i j => ?_) _
    exact (slab_apply (winBlk m c t) e 0 j i).trans (winBlk_apply m c t e j i)
  · rw [stored_right _ _ _ u v cc hc, resultAt_right _ _ _ _ _ _ _ _ _ hc, accOut_apply]
    refine congrArg₂ (· + ·) ?_ (biasBlk_apply m c t 0 cc)
    unfold msgOut
    refine msg_congr _ (fun w j => hk2 w j) (fun w => hk3 w v) (fun e i j => ?_) _
    exact (slab_apply (woutBlk m c t) e 0 j i).trans (woutBlk_apply m c t e j i)

/-! ## The sixteen blocks tile the result array -/

/-- An index is in point `t`'s block iff each coordinate is in the block's range on its axis. -/
theorem mem_blk (t : Fin cfg0.N) (i : S16x1024x128.Idx) :
    i ∈ ((cfg0.win 5).blk t).view.set ↔ ∀ a : Fin 3, win0_5.index t a * S1x1024x128.size a ≤ (i a).val
      ∧ (i a).val < win0_5.index t a * S1x1024x128.size a + S1x1024x128.size a := by
  show i ∈ ((View.whole main_v3).slice (win0_5.rect t)).set ↔ _
  rw [View.set_slice_whole, Rect.mem_set_unit]
  exact Iff.rfl

/-- Index (b, v, c) lies in the block of the point that treats graph `b`. -/
theorem covered (i : S16x1024x128.Idx) :
    ∃ t : Fin cfg0.N, (cfg0.win 5).flush t = true ∧ i ∈ ((cfg0.win 5).blk t).view.set := by
  have h0 : (i 0).val < 16 := (i 0).isLt
  have h1 : (i 1).val < 1024 := (i 1).isLt
  have h2 : (i 2).val < 128 := (i 2).isLt
  obtain ⟨t, ht⟩ : ∃ t : Fin cfg0.N, t.val = (i 0).val := ⟨⟨(i 0).val, lt_of_lt_of_eq h0 N_0.symm⟩, rfl⟩
  obtain ⟨-, -, -, -, -, -, -, -, -, -, -, -, -, -, e0, e1, e2⟩ := idx_facts t
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 128 ≤ (i 2).val ∧ (i 2).val < win0_5.index t (2 : Fin 3) * 128 + 128; omega

/-- So the result array ends holding the result function of the five argument arrays. -/
theorem final (c : Dev nD) : (dats m 0 c).arrAt 5 cfg0.N = target m c :=
  (dats m 0 c).arrAt_eq_of_cover 5 (target m c) (fun t _ => flushed_eq m c t) covered

/-- The run, read: the result array at the result function, the arguments unchanged. -/
theorem run : θ_run defs (onTc (τ := τ) (main (F := Ideal))) ⟨m, fun _ => 0, ρ⟩ fun r => ∀ c : Dev nD,
      r.2.mem ((c : Thread nD τ).loc main_v3) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KValue

end
-- ==== Proof.RefValue.lean ====
/-
  The reference's result, read at an index.

  For each edge class the reference compares the edge words with the class number (a 0/1 array), projects every node's
  state by the class's matrix (out[b, w, i] = Σ_j x[b, w, j] · W[i, j]), applies the 0/1 array to the projection graph by
  graph (out[b, v, i] = Σ_w mask[b, v, w] · hw[b, w, i]) and adds the result onto the running sum, which starts at zero.
  It does so twice — on the edge words as given with the first stack of matrices, and on the edge words transposed within
  each graph with the second stack —, joins the two along the feature axis and adds the bias.
-/
import proofs.«172507_j26465588478646_1_alg».proof.Proof.Gen.ReferenceIdeal.Read
import proofs.«172507_j26465588478646_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Ggnn

/-! ## One class's step and the eight in order, for any float instance -/

section Generic

variable {F : FTy → Type} [FloatOps F]

/-- The running sum after one more class: the class's 0/1 array applied to the states projected by the class's matrix,
    the matrix cut from its stack at offsets `off`. -/
def step (acc : FVec F S16x1024x64 .f32) (adjv : IVec S16x1024x1024 32) (x0 : FVec F S16x1024x64 .f32)
    (W : FVec F S8x64x64 .f32) (k : BitVec 32) (off : Fin 3 → Nat) (hs : S8x64x64.Slices off S1x64x64) : FVec F S16x1024x64 .f32 :=
  addf acc (Host.dotGeneral dot_S16x1024x1024_S16x1024x64_S16x1024x64_2_1_1_2_0_0 none
    (uitofp .f32 (cmpi .eq adjv (broadcastInDim S16x1024x1024 ![] bcast_S_S16x1024x1024 (constantI S_ 32 k))))
    (Host.dotGeneral dot_S16x1024x64_S64x64_S16x1024x64_2_1_01_0_n_n none x0
      (shapeCast S64x64 (extractStridedSlice S1x64x64 off W hs) shapeCasts_S1x64x64_S64x64)))

/-- The zero array the running sum starts from. -/
def zeros : FVec F S16x1024x64 .f32 := broadcastInDim S16x1024x64 ![] bcast_S_S16x1024x64 (constant S_ .f32 0x00000000#32)

/-- One message array: the eight classes' steps in class order, from zero. -/
def msgOf (adjv : IVec S16x1024x1024 32) (x0 : FVec F S16x1024x64 .f32) (W : FVec F S8x64x64 .f32) : FVec F S16x1024x64 .f32 :=
  step (step (step (step (step (step (step (step zeros
    adjv x0 W 0#32 ![0, 0, 0] slices_S8x64x64_S1x64x64_0_0_0) adjv x0 W 1#32 ![1, 0, 0] slices_S8x64x64_S1x64x64_1_0_0)
    adjv x0 W 2#32 ![2, 0, 0] slices_S8x64x64_S1x64x64_2_0_0) adjv x0 W 3#32 ![3, 0, 0] slices_S8x64x64_S1x64x64_3_0_0)
    adjv x0 W 4#32 ![4, 0, 0] slices_S8x64x64_S1x64x64_4_0_0) adjv x0 W 5#32 ![5, 0, 0] slices_S8x64x64_S1x64x64_5_0_0)
    adjv x0 W 6#32 ![6, 0, 0] slices_S8x64x64_S1x64x64_6_0_0) adjv x0 W 7#32 ![7, 0, 0] slices_S8x64x64_S1x64x64_7_0_0

/-- The incoming message array is `msgOf` of the edge words as given and the first stack. -/
theorem v64_eq (x0 : FVec F S16x1024x64 .f32) (x1 : IVec S16x1024x1024 32) (x2 : FVec F S8x64x64 .f32) :
    val_main_v64 (F := F) x0 x1 x2 = msgOf x1 x0 x2 := rfl

/-- The outgoing one is `msgOf` of the edge words transposed within each graph and the second stack. -/
theorem v130_eq (x0 : FVec F S16x1024x64 .f32) (x1 : IVec S16x1024x1024 32) (x3 : FVec F S8x64x64 .f32) :
    val_main_v130 (F := F) x0 x1 x3
      = msgOf (transpose S16x1024x1024 [0, 2, 1] x1 transposes_S16x1024x1024_S16x1024x1024_0_2_1) x0 x3 := rfl

end Generic

/-! ## Read at an index, over the extended reals -/

section AtIdeal

/-- The projection of every node's state by one matrix, at (b, w, i): Σ_j x[b, w, j] · W[i, j]. -/
theorem project_apply (l : FVec Ideal S16x1024x64 .f32) (r : FVec Ideal S64x64 .f32) (b : Fin 16) (w : Fin 1024) (i : Fin 64) :
    Host.dotGeneral dot_S16x1024x64_S64x64_S16x1024x64_2_1_01_0_n_n none l r (ix3 b w i)
      = ∑ j : Fin 64, l (ix3 b w j) * r (ix2 i j) := by
  simp only [Host.dotGeneral]
  rw [Ideal.dotGeneral_apply, ← Equiv.sum_comp (contrEquiv1 dot_S16x1024x64_S64x64_S16x1024x64_2_1_01_0_n_n 64 rfl rfl).symm]
  refine Finset.sum_congr rfl fun k _ => ?_
  have hk := contrEquiv1_symm_val dot_S16x1024x64_S64x64_S16x1024x64_2_1_01_0_n_n 64 rfl rfl k
  have el : dot_S16x1024x64_S64x64_S16x1024x64_2_1_01_0_n_n.lhsIdx (ix3 b w i) ((contrEquiv1 dot_S16x1024x64_S64x64_S16x1024x64_2_1_01_0_n_n 64 rfl rfl).symm k) = ix3 b w k := funext fun a => Fin.ext (by
    match a with
    | ⟨0, _⟩ => exact lhs_main_v6_0 _ _
    | ⟨1, _⟩ => exact lhs_main_v6_1 _ _
    | ⟨2, _⟩ => exact (lhs_main_v6_2 _ _).trans hk)
  have er : dot_S16x1024x64_S64x64_S16x1024x64_2_1_01_0_n_n.rhsIdx (ix3 b w i) ((contrEquiv1 dot_S16x1024x64_S64x64_S16x1024x64_2_1_01_0_n_n 64 rfl rfl).symm k) = ix2 i k := funext fun a => Fin.ext (by
    match a with
    | ⟨0, _⟩ => exact rhs_main_v6_0 _ _
    | ⟨1, _⟩ => exact (rhs_main_v6_1 _ _).trans hk)
  rw [el, er]

/-- A 0/1 array applied to a projection graph by graph, at (b, v, i): Σ_w mask[b, v, w] · hw[b, w, i]. -/
theorem gather_apply (l : FVec Ideal S16x1024x1024 .f32) (r : FVec Ideal S16x1024x64 .f32) (b : Fin 16) (v : Fin 1024) (i : Fin 64) :
    Host.dotGeneral dot_S16x1024x1024_S16x1024x64_S16x1024x64_2_1_1_2_0_0 none l r (ix3 b v i)
      = ∑ w : Fin 1024, l (ix3 b v w) * r (ix3 b w i) := by
  simp only [Host.dotGeneral]
  rw [Ideal.dotGeneral_apply, ← Equiv.sum_comp (contrEquiv1 dot_S16x1024x1024_S16x1024x64_S16x1024x64_2_1_1_2_0_0 1024 rfl rfl).symm]
  refine Finset.sum_congr rfl fun k _ => ?_
  have hk := contrEquiv1_symm_val dot_S16x1024x1024_S16x1024x64_S16x1024x64_2_1_1_2_0_0 1024 rfl rfl k
  have el : dot_S16x1024x1024_S16x1024x64_S16x1024x64_2_1_1_2_0_0.lhsIdx (ix3 b v i) ((contrEquiv1 dot_S16x1024x1024_S16x1024x64_S16x1024x64_2_1_1_2_0_0 1024 rfl rfl).symm k) = ix3 b v k := funext fun a => Fin.ext (by
    match a with
    | ⟨0, _⟩ => exact lhs_main_v7_0 _ _
    | ⟨1, _⟩ => exact lhs_main_v7_1 _ _
    | ⟨2, _⟩ => exact (lhs_main_v7_2 _ _).trans hk)
  have er : dot_S16x1024x1024_S16x1024x64_S16x1024x64_2_1_1_2_0_0.rhsIdx (ix3 b v i) ((contrEquiv1 dot_S16x1024x1024_S16x1024x64_S16x1024x64_2_1_1_2_0_0 1024 rfl rfl).symm k) = ix3 b k i := funext fun a => Fin.ext (by
    match a with
    | ⟨0, _⟩ => exact rhs_main_v7_0 _ _
    | ⟨1, _⟩ => exact (rhs_main_v7_1 _ _).trans hk
    | ⟨2, _⟩ => exact rhs_main_v7_2 _ _)
  rw [el, er]

/-- The 0/1 array of class `k` at an index is the weight of the edge word there. -/
theorem mask_apply (adjv : IVec S16x1024x1024 32) (k : BitVec 32) (j : S16x1024x1024.Idx) :
    (uitofp .f32 (cmpi .eq adjv (broadcastInDim S16x1024x1024 ![] bcast_S_S16x1024x1024 (constantI S_ 32 k))) : FVec Ideal S16x1024x1024 .f32) j
      = wt (adjv j) k := by
  show (((IntOp.cmpi .eq (adjv j) (broadcastInDim S16x1024x1024 ![] bcast_S_S16x1024x1024 (constantI S_ 32 k) j)).toNat : ℝ) : EReal) = _
  rw [broadcastInDim_apply _ bcast_S_S16x1024x1024 (constantI S_ 32 k) j (fun a => a.elim0) (fun a => a.elim0)]
  rfl

/-- The matrix of class `e`, cut from its stack and viewed [64, 64], at (i, j) is the stack at (e, i, j). -/
theorem matrix_apply (W : FVec Ideal S8x64x64 .f32) (e : Nat) (he : e < 8) (hs : S8x64x64.Slices ![e, 0, 0] S1x64x64) (i j : Fin 64) :
    shapeCast S64x64 (extractStridedSlice S1x64x64 ![e, 0, 0] W hs) shapeCasts_S1x64x64_S64x64 (ix2 i j) = W (ix3 (⟨e, he⟩ : Fin 8) i j) := by
  rw [shapeCast_1ab_ab_apply _ shapeCasts_S1x64x64_S64x64 i j]
  exact extractStridedSlice_apply ![e, 0, 0] W hs _ _ (fun a => match a with
    | ⟨0, _⟩ => by show e = e + 0; omega
    | ⟨1, _⟩ => by show i.val = 0 + i.val; omega
    | ⟨2, _⟩ => by show j.val = 0 + j.val; omega)

/-- One step at (b, v, i): the running sum there plus the class's message. -/
theorem step_apply (acc : FVec Ideal S16x1024x64 .f32) (adjv : IVec S16x1024x1024 32) (x0 : FVec Ideal S16x1024x64 .f32)
    (W : FVec Ideal S8x64x64 .f32) (k : BitVec 32) (e : Nat) (he : e < 8) (hs : S8x64x64.Slices ![e, 0, 0] S1x64x64)
    (b : Fin 16) (v : Fin 1024) (i : Fin 64) :
    step acc adjv x0 W k ![e, 0, 0] hs (ix3 b v i)
      = acc (ix3 b v i) + classMsg (fun w j => x0 (ix3 b w j)) (fun w => adjv (ix3 b v w)) (fun i j => W (ix3 (⟨e, he⟩ : Fin 8) i j)) k i := by
  unfold step classMsg
  refine congrArg (acc (ix3 b v i) + ·) ?_
  rw [gather_apply]
  refine Finset.sum_congr rfl fun w _ => ?_
  rw [mask_apply, project_apply]
  refine congrArg (wt (adjv (ix3 b v w)) k * ·) ?_
  refine Finset.sum_congr rfl fun j _ => ?_
  rw [matrix_apply W e he hs i j]

/-- The running sum starts at the zero word's value. -/
theorem zeros_apply (j : S16x1024x64.Idx) : zeros (F := Ideal) j = Ideal.ofBits .f32 0x00000000#32 := by
  unfold zeros
  rw [broadcastInDim_apply _ bcast_S_S16x1024x64 (constant (F := Ideal) S_ .f32 0x00000000#32) j (fun a => a.elim0) (fun a => a.elim0)]
  rfl

/-- One message array at (b, v, i): the eight class messages in class order onto zero, the edge words read along the last
    axis of `adjv`. -/
theorem msgOf_apply (adjv : IVec S16x1024x1024 32) (x0 : FVec Ideal S16x1024x64 .f32) (W : FVec Ideal S8x64x64 .f32)
    (b : Fin 16) (v : Fin 1024) (i : Fin 64) :
    msgOf adjv x0 W (ix3 b v i)
      = msg (Ideal.ofBits .f32 0x00000000#32) (fun w j => x0 (ix3 b w j)) (fun w => adjv (ix3 b v w)) (fun e i j => W (ix3 e i j)) i := by
  unfold msgOf msg
  rw [step_apply _ adjv x0 W 7#32 7 (by decide), step_apply _ adjv x0 W 6#32 6 (by decide), step_apply _ adjv x0 W 5#32 5 (by decide),
    step_apply _ adjv x0 W 4#32 4 (by decide), step_apply _ adjv x0 W 3#32 3 (by decide), step_apply _ adjv x0 W 2#32 2 (by decide),
    step_apply _ adjv x0 W 1#32 1 (by decide), step_apply _ adjv x0 W 0#32 0 (by decide), zeros_apply]
  rfl

end AtIdeal

/-! ## The reference's result is the result function -/

theorem ref_eq (x0 : FVec Ideal S16x1024x64 .f32) (x1 : IVec S16x1024x1024 32) (x2 x3 : FVec Ideal S8x64x64 .f32)
    (x4 : FVec Ideal S128 .f32) :
    val_main_v134 (F := Ideal) x0 x1 x2 x3 x4 = result (Ideal.ofBits .f32 0x00000000#32) x0 x1 x2 x3 x4 := by
  funext idx
  obtain ⟨b, v, c, rfl⟩ : ∃ (b : Fin 16) (v : Fin 1024) (c : Fin 128), idx = ix3 b v c := ⟨idx 0, idx 1, idx 2, eq_ix3 idx⟩
  rw [result_apply]
  have hbias : val_main_v133 (F := Ideal) x4 (ix3 b v c) = x4 (ix1 c) := by
    rw [val_main_v133_apply, val_main_v132_apply]
    congr 1
    funext a
    match a with
    | ⟨0, _⟩ => rfl
  show val_main_v131 (F := Ideal) x0 x1 x2 x3 (ix3 b v c) + val_main_v133 (F := Ideal) x4 (ix3 b v c) = _
  rw [hbias]
  by_cases hc : c.val < 64
  · rw [resultAt_left _ _ _ _ _ _ _ _ _ hc]
    refine congrArg (· + x4 (ix1 c)) ?_
    unfold val_main_v131
    rw [concatenate_pair_apply_left (2 : Fin S16x1024x128.rank) _ _ concatenates_S16x1024x64_S16x1024x64_S16x1024x128_d2 (ix3 b v c) rfl
      (ix3 b v ⟨c.val, hc⟩) (fun a => match a with | ⟨0, _⟩ => rfl | ⟨1, _⟩ => rfl | ⟨2, _⟩ => rfl), v64_eq, msgOf_apply]
    rfl
  · rw [resultAt_right _ _ _ _ _ _ _ _ _ hc]
    refine congrArg (· + x4 (ix1 c)) ?_
    unfold val_main_v131
    rw [concatenate_pair_apply_right (2 : Fin S16x1024x128.rank) _ _ concatenates_S16x1024x64_S16x1024x64_S16x1024x128_d2 (ix3 b v c) rfl rfl
      (ix3 b v ⟨c.val - 64, by have := c.isLt; omega⟩)
      (fun a => match a with | ⟨0, _⟩ => fun _ => rfl | ⟨1, _⟩ => fun _ => rfl | ⟨2, _⟩ => fun h => absurd rfl h)
      (by show c.val - 64 + 64 = c.val; omega), v130_eq, msgOf_apply]
    unfold msgOut
    refine msg_congr _ (fun _ _ => rfl) (fun w => ?_) (fun _ _ _ => rfl) _
    exact transpose_ix3_021_apply x1 transposes_S16x1024x1024_S16x1024x1024_0_2_1 b v w

end Cert.ReferenceIdeal.RefValue

end
-- ==== Proof.lean ====
/-
  A gated graph network's message step: kernel against reference, over the extended reals.

  For every graph b, node v and feature i both programs compute
      in[b, v, i]  = 0 + Σ_{k = 0..7} Σ_w [adj[b, v, w] = k] · Σ_j x[b, w, j] · W_in[k, i, j]
      out[b, v, i] = 0 + Σ_{k = 0..7} Σ_w [adj[b, w, v] = k] · Σ_j x[b, w, j] · W_out[k, i, j]
  and return in and out side by side along the feature axis, plus the bias. The kernel treats one graph per grid point,
  contracts the same 0/1 mask along its rows for `in` and along its columns for `out`, and is handed the matrices
  transposed; the reference transposes the edge words instead and contracts against the matrices as given. The sums are the
  same sums in the same order of classes: no law of the extended reals beyond reading each product at an index is used, so
  the precondition is never opened.

  `Spec` states the result as one function of the five arrays; `Steps`, `Stored` and `KValue` show that every grid point
  writes back its block of that function and that the sixteen blocks tile the result array; `RefValue` shows that the
  reference's composed operations are that function; here the two runs are set side by side.
-/
import proofs.«172507_j26465588478646_1_alg».proof.Defs
import proofs.«172507_j26465588478646_1_alg».proof.Proof.Gen.Kernel
import proofs.«172507_j26465588478646_1_alg».proof.Proof.Gen.Kernel.Skeleton
import proofs.«172507_j26465588478646_1_alg».proof.Proof.Gen.Kernel.Launch
import proofs.«172507_j26465588478646_1_alg».proof.Proof.Gen.Kernel.Points
import proofs.«172507_j26465588478646_1_alg».proof.Proof.Gen.Kernel.Frame
import proofs.«172507_j26465588478646_1_alg».proof.Proof.Gen.KernelIdeal
import proofs.«172507_j26465588478646_1_alg».proof.Proof.Gen.KernelIdeal.Skeleton
import proofs.«172507_j26465588478646_1_alg».proof.Proof.Gen.KernelIdeal.Launch
import proofs.«172507_j26465588478646_1_alg».proof.Proof.Gen.KernelIdeal.Points
import proofs.«172507_j26465588478646_1_alg».proof.Proof.Gen.KernelIdeal.Frame
import proofs.«172507_j26465588478646_1_alg».proof.Proof.Gen.ReferenceIdeal
import proofs.«172507_j26465588478646_1_alg».proof.Proof.Gen.Pre_finite_inputs
import proofs.«172507_j26465588478646_1_alg».proof.Proof.Gen.KernelIdeal.Value
import proofs.«172507_j26465588478646_1_alg».proof.Proof.Gen.ReferenceIdeal.Run
import proofs.«172507_j26465588478646_1_alg».proof.Proof.Gen.ReferenceIdeal.Read
import proofs.«172507_j26465588478646_1_alg».proof.Proof.KValue
import proofs.«172507_j26465588478646_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a sequence of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five arguments both runs end with the result array at the result function of those
    arguments: the kernel's by its sixteen blocks, the reference's by its composed operations. -/
theorem algebraic : Cert.algebraic_KernelIdeal_ReferenceIdeal := by
  intro m ρ m' ρ' _ hagree
  refine ⟨fun c => Cert.KernelIdeal.KValue.target m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v134_eq, Cert.ReferenceIdeal.RefValue.ref_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
